-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x256 : Shape := ⟨2, ![256, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S4096x256 .f32) (main_arg1 : FVec F S4096x4096 .f32) (main_arg2 : FVec F S256x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S4096x256 : Shape := ⟨2, ![4096, 256]⟩
abbrev S4096x4096 : Shape := ⟨2, ![4096, 4096]⟩
abbrev S256x256 : Shape := ⟨2, ![256, 256]⟩
abbrev S512x2048 : Shape := ⟨2, ![512, 2048]⟩
abbrev S512x256 : Shape := ⟨2, ![512, 256]⟩
abbrev S2048x256 : Shape := ⟨2, ![2048, 256]⟩

abbrev nBuf : Space → Nat
  | .hbm => 4
  | .vmem => 9
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S4096x256, .f32⟩
  | .local _ .vmem, ⟨0, _⟩ => ⟨S4096x256, .f32⟩
  | .local _ .vmem, ⟨1, _⟩ => ⟨S256x256, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x256, .f32⟩
  | .local _ .vmem, ⟨7, _⟩ => ⟨S512x256, .f32⟩
  | .local _ .vmem, ⟨8, _⟩ => ⟨S4096x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  shapeCasts_S4096x256_S4096x256 : S4096x256.ShapeCasts S4096x256
  inb_S512x2048_S512x2048_0_0 : ∀ a, (![0, 0] : Fin 2 → Nat) a + S512x2048.size a ≤ S512x2048.size a
  h_S512x2048 : 0 < S512x2048.numel
  inb_S4096x256_S2048x256_0_0 : ∀ a, (![0, 0] : Fin 2 → Nat) a + S2048x256.size a ≤ S4096x256.size a
  h_S2048x256 : 0 < S2048x256.numel
  inb_S4096x256_S2048x256_2048_0 : ∀ a, (![2048, 0] : Fin 2 → Nat) a + S2048x256.size a ≤ S4096x256.size a
  inb_S512x256_S512x256_0_0 : ∀ a, (![0, 0] : Fin 2 → Nat) a + S512x256.size a ≤ S512x256.size a
  h_S512x256 : 0 < S512x256.numel
  dot_S4096x256_S256x256_S4096x256_1_0_0_1_n_n_wf : DotDims.WF S4096x256 S256x256 S4096x256 [1] [0] [0] [1] [] []
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x4096.size a
  hwx0_2 : ∀ i : grid0.Coords, EltTy.bits .f32 = 32 ∨ (Rect.block (s := S4096x4096) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x4096.size a
  hwx0_3 : ∀ i : grid0.Coords, EltTy.bits .f32 = 32 ∨ (Rect.block (s := S4096x4096) S512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S4096x256.size a
  hwx0_4 : ∀ i : grid0.Coords, EltTy.bits .f32 = 32 ∨ (Rect.block (s := S4096x256) S512x256.size (cc0_transform_4 i) (hinb0_4 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg0) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S256x256 : Shape := ⟨2, ![256, 256]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S4096x256, .f32⟩
  | .hbm, ⟨4, _⟩ => ⟨S4096x256, .f32⟩
  | .hbm, ⟨5, _⟩ => ⟨S_, .f32⟩
  | .hbm, ⟨6, _⟩ => ⟨S4096x256, .f32⟩
  | .hbm, ⟨7, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S4096x256 : S_.BroadcastsInDim S4096x256 (![] : Fin 0 → Fin S4096x256.rank)
  dot_S4096x256_S256x256_S4096x256_1_0_0_1_n_n_wf : DotDims.WF S4096x256 S256x256 S4096x256 [1] [0] [0] [1] [] []
  dot_S4096x4096_S4096x256_S4096x256_1_0_0_1_n_n_wf : DotDims.WF S4096x4096 S4096x256 S4096x256 [1] [0] [0] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.KI.Common.lean ====
/-
  What the two runs of the kernel body and the launch share, for every float instance.

  The grid has 8 points; point t handles rows 512 t .. 512 t + 511 of the adjacency. The body's one
  branch, "is this the first grid point", holds at point 0 only: there the body also computes
  features times weight and stores it whole into its scratch buffer, which every later point reads
  back unchanged. The four input windows hold their blocks of the argument arrays at every point; the
  adjacency is staged through TWO windows (its left and right column halves).
-/
import proofs.«173311_g4337916969110_retrytranche1_687_7_alg».proof.Proof.Gen.KernelIdeal.Launch
import proofs.«173311_g4337916969110_retrytranche1_687_7_alg».proof.Proof.Gen.KernelIdeal.Skeleton
import proofs.«173311_g4337916969110_retrytranche1_687_7_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The argument and result arrays as the region finds them: the launch memory (no host operation runs first). -/
abbrev V (c : Dev nD) (b : Ref sig .tc) : Buf (Elt F) ((c : Thread nD τ).loc b) := m ((c : Thread nD τ).loc b)

/-- Window w's block of its array at grid point t. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's branch condition "the grid coordinate is 0", as the printed scalar chain. -/
abbrev cond0 (i : grid0.Coords) : Prop :=
  (Scalar.cmpi .ne (Scalar.extui (Scalar.cmpi .eq (BitVec.ofNat 32 (i 0).val) 0#32)) 0#32) = 1#1

/-- It holds at the first point and at no other. -/
theorem hcond0 : ∀ t : Fin cfg0.N, cond0 (grid0.coords t) ↔ t.val = 0 :=
  (by decide +kernel : ∀ t : Fin grid0.N, cond0 (grid0.coords t) ↔ t.val = 0)

/-- No window is ever idle. -/
theorem live0 : ∀ (w : Fin cfg0.W) (t : Fin cfg0.N), cfg0.idle w (grid0.coords t) = false := fun _ _ => rfl

/-- Each window's current staging memref at point t, as the pipeline passes it to the body, and its wholeness. -/
abbrev ms0 (t : Fin cfg0.N) : Memref sig .tc .vmem S4096x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x256 .f32 := win0_4.stage (cfg0.slots t 4)
abbrev hs4 (t : Fin cfg0.N) : (ms4 t).IsWhole := hstage0_4 ((cfg0.slots t 4).cast nbuf0_4)

/-- The scratch operand: a whole scoped buffer of the kernel's own, carried from point to point. -/
abbrev scM : Memref sig .tc .vmem S4096x256 .f32 := Memref.whole cc0_scratch0
/-- The scratch as a view, and one staging buffer of the output window as a view: contents are stated through them. -/
abbrev VS : View sig .tc .vmem S4096x256 .f32 := scM.view
abbrev VO : View sig .tc .vmem S512x256 .f32 := (Memref.whole cc0_stg4_0 : Memref sig .tc .vmem S512x256 .f32).view

end Cert.KernelIdeal.Frm

end
-- ==== Proof.KI.RunA.lean ====
/-
  The kernel body at the FIRST grid point, run once on any whole staging memrefs: the branch is taken,
  so the body stores features times weight into the scratch (one whole store) and then the rectified
  aggregate of the point's two adjacency blocks into the output's staging buffer (one whole store).
  The stores are recorded as lists of pieces, which the run itself determines.
-/
import proofs.«173311_g4337916969110_retrytranche1_687_7_alg».proof.Proof.KI.Common

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the first point's body leaves in the output's staging memref and in the scratch, with the
    run: the inputs' memrefs at their contents, the output's and the scratch at anything, all handed back. -/
noncomputable def runA (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x256 .f32) (harg5 : arg5.IsWhole) (arg6 : Memref sig .tc .vmem S4096x256 .f32) (harg6 : arg6.IsWhole) (hc : cond0 i)
    (x0 : Vec F S4096x256 .f32) (x1 : Vec F S256x256 .f32) (x2 : Vec F S512x2048 .f32) (x3 : Vec F S512x2048 .f32) :
    Σ' (L4 : List (View.Piece (Elt F) S512x256 .f32)), { LS : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__fused_gnn_kernel i arg1 harg1 arg2 harg2 arg3 harg3 arg4 harg4 arg5 harg5 arg6 harg6) K } := by
  refine ⟨?_, ?_, fun E K => ?run⟩
  case run =>
    simp only [cc0__fused_gnn_kernel_eq_skeleton]; unfold cc0__fused_gnn_kernel_skel
    unfold owns
    iintro ⟨⟨%f0, %hf0, H0⟩, ⟨%f1, %hf1, H1⟩, ⟨%f2, %hf2, H2⟩, ⟨%f3, %hf3, H3⟩, ⟨%d4, %f4, -, H4⟩, ⟨%d6, %f6, -, HS⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.KernelIdeal.Frm

end
-- ==== Proof.KI.RunB.lean ====
/-
  The kernel body at any LATER grid point, run once on any whole staging memrefs: the branch is not
  taken, the scratch is only read (it still holds what the first point stored), and the body stores the
  rectified aggregate of the point's two adjacency blocks into the output's staging buffer (one whole
  store). The store is recorded as a list of pieces, which the run itself determines.
-/
import proofs.«173311_g4337916969110_retrytranche1_687_7_alg».proof.Proof.KI.RunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces a later point's body leaves in the output's staging memref, with the run: the inputs'
    memrefs and the scratch at their contents, the output's at anything, all handed back. -/
noncomputable def runB (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x256 .f32) (harg5 : arg5.IsWhole) (arg6 : Memref sig .tc .vmem S4096x256 .f32) (harg6 : arg6.IsWhole) (hc : ¬cond0 i)
    (x0 : Vec F S4096x256 .f32) (x1 : Vec F S256x256 .f32) (x2 : Vec F S512x2048 .f32) (x3 : Vec F S512x2048 .f32) (xs : Vec F S4096x256 .f32) :
    { L4 : List (View.Piece (Elt F) S512x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc0__fused_gnn_kernel i arg1 harg1 arg2 harg2 arg3 harg3 arg4 harg4 arg5 harg5 arg6 harg6) K } := by
  refine ⟨?_, fun E K => ?run⟩
  case run =>
    simp only [cc0__fused_gnn_kernel_eq_skeleton]; unfold cc0__fused_gnn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3; obtain rfl := harg6.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS

end Cert.KernelIdeal.Frm

end
-- ==== Proof.KI.Pieces.lean ====
/-
  What the body's stores leave, read back as values: at the first grid point the scratch ends at
  features times weight (the body's first stored value) and the output's staging buffer at the body's
  second stored value of the point's two adjacency blocks and the two row halves of that product; at a
  later point the same second value, over the row halves of whatever the scratch holds.
-/
import proofs.«173311_g4337916969110_retrytranche1_687_7_alg».proof.Proof.KI.RunB
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets, as the function the library's whole-rectangle lemmas ask for. -/
theorem hz2 : (![0, 0] : Fin 2 → Nat) = fun _ => 0 := by funext a; fin_cases a <;> rfl

/-- Rows 0 .. 2047 of a 4096-row array (what the body's load of the scratch's top half reads). -/
def ldTop (xs : Vec F S4096x256 .f32) : Vec F S2048x256 .f32 :=
  View.ld xs (Rect.unit (s := S4096x256) ![0, 0] S2048x256.size inb_S4096x256_S2048x256_0_0)

/-- Rows 2048 .. 4095 of a 4096-row array (the load of the scratch's bottom half). -/
def ldBot (xs : Vec F S4096x256 .f32) : Vec F S2048x256 .f32 :=
  View.ld xs (Rect.unit (s := S4096x256) ![2048, 0] S2048x256.size inb_S4096x256_S2048x256_2048_0)

/-- A later point leaves in the output's staging buffer the body's second value of the two adjacency
    blocks and the two row halves of the scratch's contents. -/
theorem outB_canon (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x256 .f32) (harg5 : arg5.IsWhole) (arg6 : Memref sig .tc .vmem S4096x256 .f32) (harg6 : arg6.IsWhole) (hc : ¬cond0 i)
    (x0 : Vec F S4096x256 .f32) (x1 : Vec F S256x256 .f32) (x2 : Vec F S512x2048 .f32) (x3 : Vec F S512x2048 .f32) (xs : Vec F S4096x256 .f32) :
    View.canon (runB c i arg1 harg1 arg2 harg2 arg3 harg3 arg4 harg4 arg5 harg5 arg6 harg6 hc x0 x1 x2 x3 xs).1 = k0_pay2 x2 (ldTop xs) x3 (ldBot xs) := by
  unfold runB; dsimp only; sl_unfold_words
  rw [View.canon_unit_zero hz2]
  simp only [View.readAt_eq_ld, harg3.read_unread, harg4.read_unread, harg6.read_unread, View.ld_unit_zero (S := S512x2048) hz2]
  rfl

/-- The first point leaves features times weight (the body's first stored value) in the scratch. -/
theorem scrA_canon (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x256 .f32) (harg5 : arg5.IsWhole) (arg6 : Memref sig .tc .vmem S4096x256 .f32) (harg6 : arg6.IsWhole) (hc : cond0 i)
    (x0 : Vec F S4096x256 .f32) (x1 : Vec F S256x256 .f32) (x2 : Vec F S512x2048 .f32) (x3 : Vec F S512x2048 .f32) :
    View.canon (runA c i arg1 harg1 arg2 harg2 arg3 harg3 arg4 harg4 arg5 harg5 arg6 harg6 hc x0 x1 x2 x3).2.1 = k0_pay1 x0 x1 := by
  unfold runA; dsimp only; sl_unfold_words
  rw [View.canon_unit_zero (S := S4096x256) hz2]
  simp only [View.readAt_eq_ld, harg1.read_unread, harg2.read_unread, View.ld_unit_zero (S := S4096x256) hz2, View.ld_unit_zero (S := S256x256) hz2]

/-- The first point leaves in the output's staging buffer the body's second value of the two adjacency
    blocks and the two row halves of the product it has just stored into the scratch. -/
theorem outA_canon (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x256 .f32) (harg5 : arg5.IsWhole) (arg6 : Memref sig .tc .vmem S4096x256 .f32) (harg6 : arg6.IsWhole) (hc : cond0 i)
    (x0 : Vec F S4096x256 .f32) (x1 : Vec F S256x256 .f32) (x2 : Vec F S512x2048 .f32) (x3 : Vec F S512x2048 .f32) :
    View.canon (runA c i arg1 harg1 arg2 harg2 arg3 harg3 arg4 harg4 arg5 harg5 arg6 harg6 hc x0 x1 x2 x3).1 = k0_pay2 x2 (ldTop (k0_pay1 x0 x1)) x3 (ldBot (k0_pay1 x0 x1)) := by
  unfold runA; dsimp only; sl_unfold_words
  rw [View.canon_unit_zero (S := S512x256) hz2]
  have hcov : ∀ y : S4096x256.Idx, ∃ p ∈ [(⟨Rect.unit (s := S4096x256) ![0, 0] S4096x256.size inb_S4096x256_S4096x256_0_0, k0_pay1 x0 x1⟩ : View.Piece (Elt F) S4096x256 .f32)], y ∈ p.1.set :=
    fun y => ⟨_, List.mem_singleton_self _, View.mem_set_unit_zero (S := S4096x256) hz2 inb_S4096x256_S4096x256_0_0 y⟩
  simp only [View.readAt_eq_ld, harg1.read_unread, harg2.read_unread, harg3.read_unread, harg4.read_unread,
    View.ld_unit_zero (S := S4096x256) hz2, View.ld_unit_zero (S := S256x256) hz2, View.ld_unit_zero (S := S512x2048) hz2]
  rw [View.readCov_eq_canon_ld _ _ _ hcov, View.readCov_eq_canon_ld _ _ _ hcov, View.canon_unit_zero (S := S4096x256) hz2]
  rfl

/-- The pieces tile their buffers (one whole store each), so they cover them. -/
theorem coverA_out (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x256 .f32) (harg5 : arg5.IsWhole) (arg6 : Memref sig .tc .vmem S4096x256 .f32) (harg6 : arg6.IsWhole) (hc : cond0 i)
    (x0 : Vec F S4096x256 .f32) (x1 : Vec F S256x256 .f32) (x2 : Vec F S512x2048 .f32) (x3 : Vec F S512x2048 .f32) (y : S512x256.Idx) :
    ∃ pc ∈ (runA c i arg1 harg1 arg2 harg2 arg3 harg3 arg4 harg4 arg5 harg5 arg6 harg6 hc x0 x1 x2 x3).1, y ∈ pc.1.set :=
  View.cover_of_tiledL (runA c i arg1 harg1 arg2 harg2 arg3 harg3 arg4 harg4 arg5 harg5 arg6 harg6 hc x0 x1 x2 x3).1 S512x256.size (by sl_kernel_rfl) y

theorem coverA_scr (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x256 .f32) (harg5 : arg5.IsWhole) (arg6 : Memref sig .tc .vmem S4096x256 .f32) (harg6 : arg6.IsWhole) (hc : cond0 i)
    (x0 : Vec F S4096x256 .f32) (x1 : Vec F S256x256 .f32) (x2 : Vec F S512x2048 .f32) (x3 : Vec F S512x2048 .f32) (y : S4096x256.Idx) :
    ∃ pc ∈ (runA c i arg1 harg1 arg2 harg2 arg3 harg3 arg4 harg4 arg5 harg5 arg6 harg6 hc x0 x1 x2 x3).2.1, y ∈ pc.1.set :=
  View.cover_of_tiledL (runA c i arg1 harg1 arg2 harg2 arg3 harg3 arg4 harg4 arg5 harg5 arg6 harg6 hc x0 x1 x2 x3).2.1 S4096x256.size (by sl_kernel_rfl) y

theorem coverB_out (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x256 .f32) (harg5 : arg5.IsWhole) (arg6 : Memref sig .tc .vmem S4096x256 .f32) (harg6 : arg6.IsWhole) (hc : ¬cond0 i)
    (x0 : Vec F S4096x256 .f32) (x1 : Vec F S256x256 .f32) (x2 : Vec F S512x2048 .f32) (x3 : Vec F S512x2048 .f32) (xs : Vec F S4096x256 .f32) (y : S512x256.Idx) :
    ∃ pc ∈ (runB c i arg1 harg1 arg2 harg2 arg3 harg3 arg4 harg4 arg5 harg5 arg6 harg6 hc x0 x1 x2 x3 xs).1, y ∈ pc.1.set :=
  View.cover_of_tiledL (runB c i arg1 harg1 arg2 harg2 arg3 harg3 arg4 harg4 arg5 harg5 arg6 harg6 hc x0 x1 x2 x3 xs).1 S512x256.size (by sl_kernel_rfl) y

end Cert.KernelIdeal.Frm

end
-- ==== Proof.KI.Body.lean ====
/-
  The pipeline's proof data and the body obligation, for every float instance.

  Write P for features times weight as the FIRST grid point computes it from the two whole input
  blocks (the body's first stored value). Before the first point the scratch holds anything; after
  every point it holds P. After the body at point t each input window's staging buffer still holds
  its block, and the output's holds the body's second stored value of the point's left and right
  adjacency blocks and the top and bottom row halves of P. The adjacency array is staged through two
  windows, each holding half of its share.
-/
import proofs.«173311_g4337916969110_retrytranche1_687_7_alg».proof.Proof.KI.Pieces

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Features times weight, as the first grid point stores it into the scratch. -/
def sup (c : Dev nD) : Vec F S4096x256 .f32 := k0_pay1 (iblk m c 0 t0_0) (iblk m c 1 t0_0)

/-- What point t leaves in the output's staging buffer: the rectified sum of the two half contractions of
    the point's adjacency blocks against the row halves of the scratch's product. -/
def outv (c : Dev nD) (t : Fin cfg0.N) : Vec F S512x256 .f32 :=
  k0_pay2 (iblk m c 2 t) (ldTop (sup m c)) (iblk m c 3 t) (ldBot (sup m c))

/-- The scratch between points: anything before the first point, the product afterwards. -/
def PhiS (c : Dev nD) : ℕ → sProp 𝕄
  | 0 => iprop(∃ d, owns (c : Thread nD τ) scM fullShare d)
  | _ + 1 => owns (c : Thread nD τ) scM fullShare (sup m c)

theorem PhiS_pos (c : Dev nD) (n : ℕ) (h : n ≠ 0) : PhiS m c n = owns (c : Thread nD τ) scM fullShare (sup m c) := by
  cases n with
  | zero => exact absurd rfl h
  | succ n => rfl

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outv m c t
  Φ t := PhiS m c t.val
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outv m c t := by dsimp only [dats]

/-- Each input window's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4000000 in
/-- The body at any point. At the first point the branch is taken: the scratch, handed over at anything,
    comes back holding the product, and the output's buffer holds the point's value over that product. At
    a later point the branch is not taken: the scratch is handed over holding the product and comes back
    unchanged. The input buffers come back as they were; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).leavesExact 0 t = owns (c : Thread nD τ) (ms0 t) fullShare ((dats m 0 c).after 0 t) from by
    unfold Dat.leavesExact; rw [live0 0 t], after0]
  rw [show (dats m 0 c).leavesExact 1 t = owns (c : Thread nD τ) (ms1 t) fullShare ((dats m 0 c).after 1 t) from by
    unfold Dat.leavesExact; rw [live0 1 t], after1]
  rw [show (dats m 0 c).leavesExact 2 t = owns (c : Thread nD τ) (ms2 t) fullShare ((dats m 0 c).after 2 t) from by
    unfold Dat.leavesExact; rw [live0 2 t], after2]
  rw [show (dats m 0 c).leavesExact 3 t = owns (c : Thread nD τ) (ms3 t) fullShare ((dats m 0 c).after 3 t) from by
    unfold Dat.leavesExact; rw [live0 3 t], after3]
  rw [show (dats m 0 c).leavesExact 4 t = owns (c : Thread nD τ) (ms4 t) fullShare ((dats m 0 c).after 4 t) from by
    unfold Dat.leavesExact; rw [live0 4 t], after4]
  rw [show (dats m 0 c).Φ t.succ = owns (c : Thread nD τ) scM fullShare (sup m c) from rfl]
  by_cases hz : t.val = 0
  · obtain rfl : t = t0_0 := Fin.ext hz
    rw [show (dats m 0 c).Φ (t0_0 : Fin cfg0.N).castSucc = iprop(∃ d, owns (c : Thread nD τ) scM fullShare d) from rfl]
    iintro ⟨HS, Ho, ⟨%d0, H0⟩, ⟨%d1, H1⟩, ⟨%d2, H2⟩, ⟨%d3, H3⟩, ⟨%d4, H4⟩⟩
    iapply ((runA c (grid0.coords t0_0) _ _ _ _ _ _ _ _ _ _ _ _ ((hcond0 t0_0).mpr rfl) (iblk m c 0 t0_0) (iblk m c 1 t0_0) (iblk m c 2 t0_0) (iblk m c 3 t0_0)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS]
    · unfold owns; iexists _; isplitr
      swap; · iexact HS
      ipureintro
      exact (View.read_writes_eq_canon _ _ _ (coverA_scr c _ _ _ _ _ _ _ _ _ _ _ _ _ _ _ _ _ _)).trans (scrA_canon c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact (View.read_writes_eq_canon _ _ _ (coverA_out c _ _ _ _ _ _ _ _ _ _ _ _ _ _ _ _ _ _)).trans (outA_canon c _ _ _ _ _ _ _ _ _ _ _ _ _ _ _ _ _ _)
  · rw [show (dats m 0 c).Φ t.castSucc = PhiS m c t.val from rfl, PhiS_pos m c _ hz]
    iintro ⟨HS, Ho, ⟨%d0, H0⟩, ⟨%d1, H1⟩, ⟨%d2, H2⟩, ⟨%d3, H3⟩, ⟨%d4, H4⟩⟩
    iapply ((runB c (grid0.coords t) _ _ _ _ _ _ _ _ _ _ _ _ (fun h => hz ((hcond0 t).mp h)) (iblk m c 0 t) (iblk m c 1 t) (iblk m c 2 t) (iblk m c 3 t) (sup m c)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS]; · iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact (View.read_writes_eq_canon _ _ _ (coverB_out c _ _ _ _ _ _ _ _ _ _ _ _ _ _ _ _ _ _ _)).trans (outB_canon c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Frm

end
-- ==== Proof.KI.Launch.lean ====
/-
  The launch and the run of the one-region program, for every float instance: from any launch memory
  with all semaphore counters at zero, every weakly fair execution of @main on the TensorCore
  terminates without a fault, and every final memory holds each of the pipeline's five window arrays
  at what the library computes from the proof data — the three argument arrays unchanged (two windows
  on the adjacency, each holding half of its share), the result array as the eight write-backs leave it.
-/
import proofs.«173311_g4337916969110_retrytranche1_687_7_alg».proof.Proof.KI.Body

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element of the ghost state: every staging cell's owner at round 0 and a duty token for every
    transfer the pipeline issues. -/
def u₀ : UR sig nD τ := initOf (Pipeline.cells cfgs cellOf_inj) (Pipeline.launchToks cfgs cellOf_inj)

/-- The distinct buffers behind the windows' arrays, one by one: features, weight, adjacency, result. -/
theorem bigSep_arrs {M : Type} [URA M] (Φ : Ref sig .tc → sProp M) :
    bigSep (Finset.univ.image (Pipeline.arrRef spec0)) Φ = iprop(Φ main_arg0 ∗ Φ main_arg2 ∗ Φ main_arg1 ∗ Φ main_v0) :=
  bigSep_eq_bigSepL_of_eq [main_arg0, main_arg2, main_arg1, main_v0] (by decide) (by decide) Φ

/-- The four distinct buffers behind the five windows' arrays, each whole at the full share, make the
    proof data's holdings at entry: the adjacency's full share splits into the two halves its two windows hold. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_arrs, bigSep_W0]
  have s0 : (dats m 0 c).share 0 = fullShare := rfl
  have s1 : (dats m 0 c).share 1 = fullShare := rfl
  have s2 : (dats m 0 c).share 2 = fullShare.left := rfl
  have s3 : (dats m 0 c).share 3 = fullShare.right := rfl
  have s4 : (dats m 0 c).share 4 = fullShare := rfl
  rw [s0, s1, s2, s3, s4]
  simp only [View.set_whole]
  iintro ⟨H0, H2, H1, H4⟩
  ihave H1' := (pointsTo_share (PosShare.mem_left_op_right fullShare)).1 $$ H1
  icases H1' with ⟨H1l, H1r⟩
  isplitl [H0]; · iexact H0
  isplitl [H2]; · iexact H2
  isplitl [H1l]; · iexact H1l
  isplitl [H1r]; · iexact H1r
  iexact H4

/-- Before the first point the invariant is the scratch at anything: the one scoped buffer that is no staging buffer. -/
theorem hin (c : Dev nD) : iprop(emp ∗ Pipeline.scopedRest spec0 c) ⊢ ((dats m 0 c).Φ 0 : sProp 𝕄) := by
  rw [show (dats m 0 c).Φ 0 = iprop(∃ d, owns (c : Thread nD τ) scM fullShare d) from rfl, scopedRest0_eq]
  simp only [scM, owns_whole]
  iintro ⟨-, H⟩; iexact H

/-- After the last point it gives the scratch back, its contents forgotten. -/
theorem hout (c : Dev nD) : ((dats m 0 c).Φ (Fin.last cfg0.N) : sProp 𝕄) ⊢ iprop(emp ∗ Pipeline.scopedRest spec0 c) := by
  rw [show (dats m 0 c).Φ (Fin.last cfg0.N) = owns (c : Thread nD τ) scM fullShare (sup m c) from rfl, scopedRest0_eq]
  simp only [scM, owns_whole]
  iintro H; isplitr; · iempintro
  iexists _; iexact H

/-- What the run ends with: every window's array at the contents the library computes from the proof data. -/
def QC : PUnit × MemSt nD τ sig (Elt F) → Prop := fun r =>
  ∀ (c : Dev nD) (w : Fin cfg0.W), r.2.mem ((cfg0.win w).arr.view.loc (c : Thread nD τ)) = (dats m 0 c).arrAt w cfg0.N

theorem run_main : θ_run defs (onTc (τ := τ) (main (F := F))) (s₀ m ρ) (QC m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m)
    (hmain := fun c Q => by
      simp only [main, Prog.lift, Prog.bind_op, Prog.bind_ret, Prog.pure_eq_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := hin m) (hout := hout m)
    (QY := fun _ _ => True)
    (hY := fun c s' => by
      iintro ⟨-, -, HSI⟩; imodintro
      isplitr; · ipureintro; trivial
      iexact HSI)
    (hQ := fun _ h c w => (h c).1 w)

/-- The three argument arrays end unchanged: an input window's array is never written back. -/
theorem kept0 (c : Dev nD) : (dats m 0 c).arrAt 0 cfg0.N = m ((c : Thread nD τ).loc main_arg0) :=
  ((dats m 0 c).arrAt_in 0 rfl _).trans (A_eq m c 0)
theorem kept1 (c : Dev nD) : (dats m 0 c).arrAt 1 cfg0.N = m ((c : Thread nD τ).loc main_arg2) :=
  ((dats m 0 c).arrAt_in 1 rfl _).trans (A_eq m c 1)
theorem kept2 (c : Dev nD) : (dats m 0 c).arrAt 2 cfg0.N = m ((c : Thread nD τ).loc main_arg1) :=
  ((dats m 0 c).arrAt_in 2 rfl _).trans (A_eq m c 2)

/-- The run read at @main's arrays: the result array at what the eight write-backs leave, the arguments unchanged. -/
theorem run_value : θ_run defs (onTc (τ := τ) (main (F := F))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨h c 4, (h c 0).trans (kept0 m c), (h c 2).trans (kept2 m c), (h c 1).trans (kept1 m c)⟩)
    (run_main m ρ)

/-- The frame: the program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_value m ρ)

end Cert.KernelIdeal.Frm

end
-- ==== Proof.K.Common.lean ====
/-
  What the two runs of the kernel body and the launch share, for every float instance.

  The grid has 8 points; point t handles rows 512 t .. 512 t + 511 of the adjacency. The body's one
  branch, "is this the first grid point", holds at point 0 only: there the body also computes
  features times weight and stores it whole into its scratch buffer, which every later point reads
  back unchanged. The four input windows hold their blocks of the argument arrays at every point; the
  adjacency is staged through TWO windows (its left and right column halves).
-/
import proofs.«173311_g4337916969110_retrytranche1_687_7_alg».proof.Proof.KI.Launch
import proofs.«173311_g4337916969110_retrytranche1_687_7_alg».proof.Proof.Gen.Kernel.Launch
import proofs.«173311_g4337916969110_retrytranche1_687_7_alg».proof.Proof.Gen.Kernel.Skeleton
import proofs.«173311_g4337916969110_retrytranche1_687_7_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The argument and result arrays as the region finds them: the launch memory (no host operation runs first). -/
abbrev V (c : Dev nD) (b : Ref sig .tc) : Buf (Elt F) ((c : Thread nD τ).loc b) := m ((c : Thread nD τ).loc b)

/-- Window w's block of its array at grid point t. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's branch condition "the grid coordinate is 0", as the printed scalar chain. -/
abbrev cond0 (i : grid0.Coords) : Prop :=
  (Scalar.cmpi .ne (Scalar.extui (Scalar.cmpi .eq (BitVec.ofNat 32 (i 0).val) 0#32)) 0#32) = 1#1

/-- It holds at the first point and at no other. -/
theorem hcond0 : ∀ t : Fin cfg0.N, cond0 (grid0.coords t) ↔ t.val = 0 :=
  (by decide +kernel : ∀ t : Fin grid0.N, cond0 (grid0.coords t) ↔ t.val = 0)

/-- No window is ever idle. -/
theorem live0 : ∀ (w : Fin cfg0.W) (t : Fin cfg0.N), cfg0.idle w (grid0.coords t) = false := fun _ _ => rfl

/-- Each window's current staging memref at point t, as the pipeline passes it to the body, and its wholeness. -/
abbrev ms0 (t : Fin cfg0.N) : Memref sig .tc .vmem S4096x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x256 .f32 := win0_4.stage (cfg0.slots t 4)
abbrev hs4 (t : Fin cfg0.N) : (ms4 t).IsWhole := hstage0_4 ((cfg0.slots t 4).cast nbuf0_4)

/-- The scratch operand: a whole scoped buffer of the kernel's own, carried from point to point. -/
abbrev scM : Memref sig .tc .vmem S4096x256 .f32 := Memref.whole cc0_scratch0
/-- The scratch as a view, and one staging buffer of the output window as a view: contents are stated through them. -/
abbrev VS : View sig .tc .vmem S4096x256 .f32 := scM.view
abbrev VO : View sig .tc .vmem S512x256 .f32 := (Memref.whole cc0_stg4_0 : Memref sig .tc .vmem S512x256 .f32).view

end Cert.Kernel.Frm

end
-- ==== Proof.K.RunA.lean ====
/-
  The kernel body at the FIRST grid point, run once on any whole staging memrefs: the branch is taken,
  so the body stores features times weight into the scratch (one whole store) and then the rectified
  aggregate of the point's two adjacency blocks into the output's staging buffer (one whole store).
  The stores are recorded as lists of pieces, which the run itself determines.
-/
import proofs.«173311_g4337916969110_retrytranche1_687_7_alg».proof.Proof.K.Common

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the first point's body leaves in the output's staging memref and in the scratch, with the
    run: the inputs' memrefs at their contents, the output's and the scratch at anything, all handed back. -/
noncomputable def runA (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x256 .f32) (harg5 : arg5.IsWhole) (arg6 : Memref sig .tc .vmem S4096x256 .f32) (harg6 : arg6.IsWhole) (hc : cond0 i)
    (x0 : Vec F S4096x256 .f32) (x1 : Vec F S256x256 .f32) (x2 : Vec F S512x2048 .f32) (x3 : Vec F S512x2048 .f32) :
    Σ' (L4 : List (View.Piece (Elt F) S512x256 .f32)), { LS : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__fused_gnn_kernel i arg1 harg1 arg2 harg2 arg3 harg3 arg4 harg4 arg5 harg5 arg6 harg6) K } := by
  refine ⟨?_, ?_, fun E K => ?run⟩
  case run =>
    simp only [cc0__fused_gnn_kernel_eq_skeleton]; unfold cc0__fused_gnn_kernel_skel
    unfold owns
    iintro ⟨⟨%f0, %hf0, H0⟩, ⟨%f1, %hf1, H1⟩, ⟨%f2, %hf2, H2⟩, ⟨%f3, %hf3, H3⟩, ⟨%d4, %f4, -, H4⟩, ⟨%d6, %f6, -, HS⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.Kernel.Frm

end
-- ==== Proof.K.RunB.lean ====
/-
  The kernel body at any LATER grid point, run once on any whole staging memrefs: the branch is not
  taken, the scratch is only read (it still holds what the first point stored), and the body stores the
  rectified aggregate of the point's two adjacency blocks into the output's staging buffer (one whole
  store). The store is recorded as a list of pieces, which the run itself determines.
-/
import proofs.«173311_g4337916969110_retrytranche1_687_7_alg».proof.Proof.K.RunA

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces a later point's body leaves in the output's staging memref, with the run: the inputs'
    memrefs and the scratch at their contents, the output's at anything, all handed back. -/
noncomputable def runB (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x256 .f32) (harg5 : arg5.IsWhole) (arg6 : Memref sig .tc .vmem S4096x256 .f32) (harg6 : arg6.IsWhole) (hc : ¬cond0 i)
    (x0 : Vec F S4096x256 .f32) (x1 : Vec F S256x256 .f32) (x2 : Vec F S512x2048 .f32) (x3 : Vec F S512x2048 .f32) (xs : Vec F S4096x256 .f32) :
    { L4 : List (View.Piece (Elt F) S512x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc0__fused_gnn_kernel i arg1 harg1 arg2 harg2 arg3 harg3 arg4 harg4 arg5 harg5 arg6 harg6) K } := by
  refine ⟨?_, fun E K => ?run⟩
  case run =>
    simp only [cc0__fused_gnn_kernel_eq_skeleton]; unfold cc0__fused_gnn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3; obtain rfl := harg6.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS

end Cert.Kernel.Frm

end
-- ==== Proof.K.Pieces.lean ====
/-
  What the body's stores leave, read back as values: at the first grid point the scratch ends at
  features times weight (the body's first stored value) and the output's staging buffer at the body's
  second stored value of the point's two adjacency blocks and the two row halves of that product; at a
  later point the same second value, over the row halves of whatever the scratch holds.
-/
import proofs.«173311_g4337916969110_retrytranche1_687_7_alg».proof.Proof.K.RunB
import Idealize.ShloMosaic.Lib.Pipeline.Value

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets, as the function the library's whole-rectangle lemmas ask for. -/
theorem hz2 : (![0, 0] : Fin 2 → Nat) = fun _ => 0 := by funext a; fin_cases a <;> rfl

/-- Rows 0 .. 2047 of a 4096-row array (what the body's load of the scratch's top half reads). -/
def ldTop (xs : Vec F S4096x256 .f32) : Vec F S2048x256 .f32 :=
  View.ld xs (Rect.unit (s := S4096x256) ![0, 0] S2048x256.size inb_S4096x256_S2048x256_0_0)

/-- Rows 2048 .. 4095 of a 4096-row array (the load of the scratch's bottom half). -/
def ldBot (xs : Vec F S4096x256 .f32) : Vec F S2048x256 .f32 :=
  View.ld xs (Rect.unit (s := S4096x256) ![2048, 0] S2048x256.size inb_S4096x256_S2048x256_2048_0)

/-- A later point leaves in the output's staging buffer the body's second value of the two adjacency
    blocks and the two row halves of the scratch's contents. -/
theorem outB_canon (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x256 .f32) (harg5 : arg5.IsWhole) (arg6 : Memref sig .tc .vmem S4096x256 .f32) (harg6 : arg6.IsWhole) (hc : ¬cond0 i)
    (x0 : Vec F S4096x256 .f32) (x1 : Vec F S256x256 .f32) (x2 : Vec F S512x2048 .f32) (x3 : Vec F S512x2048 .f32) (xs : Vec F S4096x256 .f32) :
    View.canon (runB c i arg1 harg1 arg2 harg2 arg3 harg3 arg4 harg4 arg5 harg5 arg6 harg6 hc x0 x1 x2 x3 xs).1 = k0_pay2 x2 (ldTop xs) x3 (ldBot xs) := by
  unfold runB; dsimp only; sl_unfold_words
  rw [View.canon_unit_zero hz2]
  simp only [View.readAt_eq_ld, harg3.read_unread, harg4.read_unread, harg6.read_unread, View.ld_unit_zero (S := S512x2048) hz2]
  rfl

/-- The first point leaves features times weight (the body's first stored value) in the scratch. -/
theorem scrA_canon (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x256 .f32) (harg5 : arg5.IsWhole) (arg6 : Memref sig .tc .vmem S4096x256 .f32) (harg6 : arg6.IsWhole) (hc : cond0 i)
    (x0 : Vec F S4096x256 .f32) (x1 : Vec F S256x256 .f32) (x2 : Vec F S512x2048 .f32) (x3 : Vec F S512x2048 .f32) :
    View.canon (runA c i arg1 harg1 arg2 harg2 arg3 harg3 arg4 harg4 arg5 harg5 arg6 harg6 hc x0 x1 x2 x3).2.1 = k0_pay1 x0 x1 := by
  unfold runA; dsimp only; sl_unfold_words
  rw [View.canon_unit_zero (S := S4096x256) hz2]
  simp only [View.readAt_eq_ld, harg1.read_unread, harg2.read_unread, View.ld_unit_zero (S := S4096x256) hz2, View.ld_unit_zero (S := S256x256) hz2]

/-- The first point leaves in the output's staging buffer the body's second value of the two adjacency
    blocks and the two row halves of the product it has just stored into the scratch. -/
theorem outA_canon (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x256 .f32) (harg5 : arg5.IsWhole) (arg6 : Memref sig .tc .vmem S4096x256 .f32) (harg6 : arg6.IsWhole) (hc : cond0 i)
    (x0 : Vec F S4096x256 .f32) (x1 : Vec F S256x256 .f32) (x2 : Vec F S512x2048 .f32) (x3 : Vec F S512x2048 .f32) :
    View.canon (runA c i arg1 harg1 arg2 harg2 arg3 harg3 arg4 harg4 arg5 harg5 arg6 harg6 hc x0 x1 x2 x3).1 = k0_pay2 x2 (ldTop (k0_pay1 x0 x1)) x3 (ldBot (k0_pay1 x0 x1)) := by
  unfold runA; dsimp only; sl_unfold_words
  rw [View.canon_unit_zero (S := S512x256) hz2]
  have hcov : ∀ y : S4096x256.Idx, ∃ p ∈ [(⟨Rect.unit (s := S4096x256) ![0, 0] S4096x256.size inb_S4096x256_S4096x256_0_0, k0_pay1 x0 x1⟩ : View.Piece (Elt F) S4096x256 .f32)], y ∈ p.1.set :=
    fun y => ⟨_, List.mem_singleton_self _, View.mem_set_unit_zero (S := S4096x256) hz2 inb_S4096x256_S4096x256_0_0 y⟩
  simp only [View.readAt_eq_ld, harg1.read_unread, harg2.read_unread, harg3.read_unread, harg4.read_unread,
    View.ld_unit_zero (S := S4096x256) hz2, View.ld_unit_zero (S := S256x256) hz2, View.ld_unit_zero (S := S512x2048) hz2]
  rw [View.readCov_eq_canon_ld _ _ _ hcov, View.readCov_eq_canon_ld _ _ _ hcov, View.canon_unit_zero (S := S4096x256) hz2]
  rfl

/-- The pieces tile their buffers (one whole store each), so they cover them. -/
theorem coverA_out (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x256 .f32) (harg5 : arg5.IsWhole) (arg6 : Memref sig .tc .vmem S4096x256 .f32) (harg6 : arg6.IsWhole) (hc : cond0 i)
    (x0 : Vec F S4096x256 .f32) (x1 : Vec F S256x256 .f32) (x2 : Vec F S512x2048 .f32) (x3 : Vec F S512x2048 .f32) (y : S512x256.Idx) :
    ∃ pc ∈ (runA c i arg1 harg1 arg2 harg2 arg3 harg3 arg4 harg4 arg5 harg5 arg6 harg6 hc x0 x1 x2 x3).1, y ∈ pc.1.set :=
  View.cover_of_tiledL (runA c i arg1 harg1 arg2 harg2 arg3 harg3 arg4 harg4 arg5 harg5 arg6 harg6 hc x0 x1 x2 x3).1 S512x256.size (by sl_kernel_rfl) y

theorem coverA_scr (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x256 .f32) (harg5 : arg5.IsWhole) (arg6 : Memref sig .tc .vmem S4096x256 .f32) (harg6 : arg6.IsWhole) (hc : cond0 i)
    (x0 : Vec F S4096x256 .f32) (x1 : Vec F S256x256 .f32) (x2 : Vec F S512x2048 .f32) (x3 : Vec F S512x2048 .f32) (y : S4096x256.Idx) :
    ∃ pc ∈ (runA c i arg1 harg1 arg2 harg2 arg3 harg3 arg4 harg4 arg5 harg5 arg6 harg6 hc x0 x1 x2 x3).2.1, y ∈ pc.1.set :=
  View.cover_of_tiledL (runA c i arg1 harg1 arg2 harg2 arg3 harg3 arg4 harg4 arg5 harg5 arg6 harg6 hc x0 x1 x2 x3).2.1 S4096x256.size (by sl_kernel_rfl) y

theorem coverB_out (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x256 .f32) (harg5 : arg5.IsWhole) (arg6 : Memref sig .tc .vmem S4096x256 .f32) (harg6 : arg6.IsWhole) (hc : ¬cond0 i)
    (x0 : Vec F S4096x256 .f32) (x1 : Vec F S256x256 .f32) (x2 : Vec F S512x2048 .f32) (x3 : Vec F S512x2048 .f32) (xs : Vec F S4096x256 .f32) (y : S512x256.Idx) :
    ∃ pc ∈ (runB c i arg1 harg1 arg2 harg2 arg3 harg3 arg4 harg4 arg5 harg5 arg6 harg6 hc x0 x1 x2 x3 xs).1, y ∈ pc.1.set :=
  View.cover_of_tiledL (runB c i arg1 harg1 arg2 harg2 arg3 harg3 arg4 harg4 arg5 harg5 arg6 harg6 hc x0 x1 x2 x3 xs).1 S512x256.size (by sl_kernel_rfl) y

end Cert.Kernel.Frm

end
-- ==== Proof.K.Body.lean ====
/-
  The pipeline's proof data and the body obligation, for every float instance.

  Write P for features times weight as the FIRST grid point computes it from the two whole input
  blocks (the body's first stored value). Before the first point the scratch holds anything; after
  every point it holds P. After the body at point t each input window's staging buffer still holds
  its block, and the output's holds the body's second stored value of the point's left and right
  adjacency blocks and the top and bottom row halves of P. The adjacency array is staged through two
  windows, each holding half of its share.
-/
import proofs.«173311_g4337916969110_retrytranche1_687_7_alg».proof.Proof.K.Pieces

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Features times weight, as the first grid point stores it into the scratch. -/
def sup (c : Dev nD) : Vec F S4096x256 .f32 := k0_pay1 (iblk m c 0 t0_0) (iblk m c 1 t0_0)

/-- What point t leaves in the output's staging buffer: the rectified sum of the two half contractions of
    the point's adjacency blocks against the row halves of the scratch's product. -/
def outv (c : Dev nD) (t : Fin cfg0.N) : Vec F S512x256 .f32 :=
  k0_pay2 (iblk m c 2 t) (ldTop (sup m c)) (iblk m c 3 t) (ldBot (sup m c))

/-- The scratch between points: anything before the first point, the product afterwards. -/
def PhiS (c : Dev nD) : ℕ → sProp 𝕄
  | 0 => iprop(∃ d, owns (c : Thread nD τ) scM fullShare d)
  | _ + 1 => owns (c : Thread nD τ) scM fullShare (sup m c)

theorem PhiS_pos (c : Dev nD) (n : ℕ) (h : n ≠ 0) : PhiS m c n = owns (c : Thread nD τ) scM fullShare (sup m c) := by
  cases n with
  | zero => exact absurd rfl h
  | succ n => rfl

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outv m c t
  Φ t := PhiS m c t.val
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outv m c t := by dsimp only [dats]

/-- Each input window's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4000000 in
/-- The body at any point. At the first point the branch is taken: the scratch, handed over at anything,
    comes back holding the product, and the output's buffer holds the point's value over that product. At
    a later point the branch is not taken: the scratch is handed over holding the product and comes back
    unchanged. The input buffers come back as they were; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).leavesExact 0 t = owns (c : Thread nD τ) (ms0 t) fullShare ((dats m 0 c).after 0 t) from by
    unfold Dat.leavesExact; rw [live0 0 t], after0]
  rw [show (dats m 0 c).leavesExact 1 t = owns (c : Thread nD τ) (ms1 t) fullShare ((dats m 0 c).after 1 t) from by
    unfold Dat.leavesExact; rw [live0 1 t], after1]
  rw [show (dats m 0 c).leavesExact 2 t = owns (c : Thread nD τ) (ms2 t) fullShare ((dats m 0 c).after 2 t) from by
    unfold Dat.leavesExact; rw [live0 2 t], after2]
  rw [show (dats m 0 c).leavesExact 3 t = owns (c : Thread nD τ) (ms3 t) fullShare ((dats m 0 c).after 3 t) from by
    unfold Dat.leavesExact; rw [live0 3 t], after3]
  rw [show (dats m 0 c).leavesExact 4 t = owns (c : Thread nD τ) (ms4 t) fullShare ((dats m 0 c).after 4 t) from by
    unfold Dat.leavesExact; rw [live0 4 t], after4]
  rw [show (dats m 0 c).Φ t.succ = owns (c : Thread nD τ) scM fullShare (sup m c) from rfl]
  by_cases hz : t.val = 0
  · obtain rfl : t = t0_0 := Fin.ext hz
    rw [show (dats m 0 c).Φ (t0_0 : Fin cfg0.N).castSucc = iprop(∃ d, owns (c : Thread nD τ) scM fullShare d) from rfl]
    iintro ⟨HS, Ho, ⟨%d0, H0⟩, ⟨%d1, H1⟩, ⟨%d2, H2⟩, ⟨%d3, H3⟩, ⟨%d4, H4⟩⟩
    iapply ((runA c (grid0.coords t0_0) _ _ _ _ _ _ _ _ _ _ _ _ ((hcond0 t0_0).mpr rfl) (iblk m c 0 t0_0) (iblk m c 1 t0_0) (iblk m c 2 t0_0) (iblk m c 3 t0_0)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS]
    · unfold owns; iexists _; isplitr
      swap; · iexact HS
      ipureintro
      exact (View.read_writes_eq_canon _ _ _ (coverA_scr c _ _ _ _ _ _ _ _ _ _ _ _ _ _ _ _ _ _)).trans (scrA_canon c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact (View.read_writes_eq_canon _ _ _ (coverA_out c _ _ _ _ _ _ _ _ _ _ _ _ _ _ _ _ _ _)).trans (outA_canon c _ _ _ _ _ _ _ _ _ _ _ _ _ _ _ _ _ _)
  · rw [show (dats m 0 c).Φ t.castSucc = PhiS m c t.val from rfl, PhiS_pos m c _ hz]
    iintro ⟨HS, Ho, ⟨%d0, H0⟩, ⟨%d1, H1⟩, ⟨%d2, H2⟩, ⟨%d3, H3⟩, ⟨%d4, H4⟩⟩
    iapply ((runB c (grid0.coords t) _ _ _ _ _ _ _ _ _ _ _ _ (fun h => hz ((hcond0 t).mp h)) (iblk m c 0 t) (iblk m c 1 t) (iblk m c 2 t) (iblk m c 3 t) (sup m c)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS]; · iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact (View.read_writes_eq_canon _ _ _ (coverB_out c _ _ _ _ _ _ _ _ _ _ _ _ _ _ _ _ _ _ _)).trans (outB_canon c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Frm

end
-- ==== Proof.K.Launch.lean ====
/-
  The launch and the run of the one-region program, for every float instance: from any launch memory
  with all semaphore counters at zero, every weakly fair execution of @main on the TensorCore
  terminates without a fault, and every final memory holds each of the pipeline's five window arrays
  at what the library computes from the proof data — the three argument arrays unchanged (two windows
  on the adjacency, each holding half of its share), the result array as the eight write-backs leave it.
-/
import proofs.«173311_g4337916969110_retrytranche1_687_7_alg».proof.Proof.K.Body

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element of the ghost state: every staging cell's owner at round 0 and a duty token for every
    transfer the pipeline issues. -/
def u₀ : UR sig nD τ := initOf (Pipeline.cells cfgs cellOf_inj) (Pipeline.launchToks cfgs cellOf_inj)

/-- The distinct buffers behind the windows' arrays, one by one: features, weight, adjacency, result. -/
theorem bigSep_arrs {M : Type} [URA M] (Φ : Ref sig .tc → sProp M) :
    bigSep (Finset.univ.image (Pipeline.arrRef spec0)) Φ = iprop(Φ main_arg0 ∗ Φ main_arg2 ∗ Φ main_arg1 ∗ Φ main_v0) :=
  bigSep_eq_bigSepL_of_eq [main_arg0, main_arg2, main_arg1, main_v0] (by decide) (by decide) Φ

/-- The four distinct buffers behind the five windows' arrays, each whole at the full share, make the
    proof data's holdings at entry: the adjacency's full share splits into the two halves its two windows hold. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_arrs, bigSep_W0]
  have s0 : (dats m 0 c).share 0 = fullShare := rfl
  have s1 : (dats m 0 c).share 1 = fullShare := rfl
  have s2 : (dats m 0 c).share 2 = fullShare.left := rfl
  have s3 : (dats m 0 c).share 3 = fullShare.right := rfl
  have s4 : (dats m 0 c).share 4 = fullShare := rfl
  rw [s0, s1, s2, s3, s4]
  simp only [View.set_whole]
  iintro ⟨H0, H2, H1, H4⟩
  ihave H1' := (pointsTo_share (PosShare.mem_left_op_right fullShare)).1 $$ H1
  icases H1' with ⟨H1l, H1r⟩
  isplitl [H0]; · iexact H0
  isplitl [H2]; · iexact H2
  isplitl [H1l]; · iexact H1l
  isplitl [H1r]; · iexact H1r
  iexact H4

/-- Before the first point the invariant is the scratch at anything: the one scoped buffer that is no staging buffer. -/
theorem hin (c : Dev nD) : iprop(emp ∗ Pipeline.scopedRest spec0 c) ⊢ ((dats m 0 c).Φ 0 : sProp 𝕄) := by
  rw [show (dats m 0 c).Φ 0 = iprop(∃ d, owns (c : Thread nD τ) scM fullShare d) from rfl, scopedRest0_eq]
  simp only [scM, owns_whole]
  iintro ⟨-, H⟩; iexact H

/-- After the last point it gives the scratch back, its contents forgotten. -/
theorem hout (c : Dev nD) : ((dats m 0 c).Φ (Fin.last cfg0.N) : sProp 𝕄) ⊢ iprop(emp ∗ Pipeline.scopedRest spec0 c) := by
  rw [show (dats m 0 c).Φ (Fin.last cfg0.N) = owns (c : Thread nD τ) scM fullShare (sup m c) from rfl, scopedRest0_eq]
  simp only [scM, owns_whole]
  iintro H; isplitr; · iempintro
  iexists _; iexact H

/-- What the run ends with: every window's array at the contents the library computes from the proof data. -/
def QC : PUnit × MemSt nD τ sig (Elt F) → Prop := fun r =>
  ∀ (c : Dev nD) (w : Fin cfg0.W), r.2.mem ((cfg0.win w).arr.view.loc (c : Thread nD τ)) = (dats m 0 c).arrAt w cfg0.N

theorem run_main : θ_run defs (onTc (τ := τ) (main (F := F))) (s₀ m ρ) (QC m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m)
    (hmain := fun c Q => by
      simp only [main, Prog.lift, Prog.bind_op, Prog.bind_ret, Prog.pure_eq_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := hin m) (hout := hout m)
    (QY := fun _ _ => True)
    (hY := fun c s' => by
      iintro ⟨-, -, HSI⟩; imodintro
      isplitr; · ipureintro; trivial
      iexact HSI)
    (hQ := fun _ h c w => (h c).1 w)

/-- The three argument arrays end unchanged: an input window's array is never written back. -/
theorem kept0 (c : Dev nD) : (dats m 0 c).arrAt 0 cfg0.N = m ((c : Thread nD τ).loc main_arg0) :=
  ((dats m 0 c).arrAt_in 0 rfl _).trans (A_eq m c 0)
theorem kept1 (c : Dev nD) : (dats m 0 c).arrAt 1 cfg0.N = m ((c : Thread nD τ).loc main_arg2) :=
  ((dats m 0 c).arrAt_in 1 rfl _).trans (A_eq m c 1)
theorem kept2 (c : Dev nD) : (dats m 0 c).arrAt 2 cfg0.N = m ((c : Thread nD τ).loc main_arg1) :=
  ((dats m 0 c).arrAt_in 2 rfl _).trans (A_eq m c 2)

/-- The run read at @main's arrays: the result array at what the eight write-backs leave, the arguments unchanged. -/
theorem run_value : θ_run defs (onTc (τ := τ) (main (F := F))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨h c 4, (h c 0).trans (kept0 m c), (h c 2).trans (kept2 m c), (h c 1).trans (kept1 m c)⟩)
    (run_main m ρ)

/-- The frame: the program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_value m ρ)

end Cert.Kernel.Frm

end
-- ==== Proof.Spec.lean ====
/-
  The graph layer as ONE function of its three argument arrays, entry by entry, on the extended reals.

  With f the node features (4096 nodes, 256 features each), w the 256 x 256 weight and a the dense
  4096 x 4096 adjacency:
    support f w k j = the sum over l < 256 of f[k, l] * w[l, j]        (features times weight),
    agg f a w i j   = the sum over k < 4096 of a[i, k] * support[k, j]  (adjacency times support),
    layer f a w     = max (agg ...) 0 at every entry                    (the rectifier).
  The kernel contracts the node axis in two halves, k < 2048 and 2048 <= k; `agg_split` says the two
  half sums add up to the whole one. Only commutativity and associativity of the extended reals'
  addition are used, so no entry needs to be finite.
-/
import Idealize.ShloMosaic.PureOps.Ideal
import Idealize.ShloMosaic.Lib.ValueIdx

noncomputable section

open scoped BigOperators

namespace Cert.Spec

open Idealize.ShloMosaic Idealize.ShloMosaic.ValueIdx

/-- Entry (k, j) of features times weight: the sum over the 256 input features. -/
def support (f : (⟨2, ![4096, 256]⟩ : Shape).Idx → EReal) (w : (⟨2, ![256, 256]⟩ : Shape).Idx → EReal)
    (k : Fin 4096) (j : Fin 256) : EReal :=
  ∑ l : Fin 256, f (ix2 k l) * w (ix2 l j)

/-- Entry (i, j) of adjacency times support, before the rectifier: the sum over all 4096 nodes. -/
def agg (f : (⟨2, ![4096, 256]⟩ : Shape).Idx → EReal) (a : (⟨2, ![4096, 4096]⟩ : Shape).Idx → EReal)
    (w : (⟨2, ![256, 256]⟩ : Shape).Idx → EReal) (i : Fin 4096) (j : Fin 256) : EReal :=
  ∑ k : Fin 4096, a (ix2 i k) * support f w k j

/-- The same entry with the node axis contracted in two halves: nodes below 2048, then nodes from 2048 on. -/
def aggHalves (f : (⟨2, ![4096, 256]⟩ : Shape).Idx → EReal) (a : (⟨2, ![4096, 4096]⟩ : Shape).Idx → EReal)
    (w : (⟨2, ![256, 256]⟩ : Shape).Idx → EReal) (i : Fin 4096) (j : Fin 256) : EReal :=
  (∑ k : Fin 2048, a (ix2 i (Fin.castLE (by decide) k)) * support f w (Fin.castLE (by decide) k) j)
    + ∑ k : Fin 2048, a (ix2 i ⟨2048 + k.val, by omega⟩) * support f w ⟨2048 + k.val, by omega⟩ j

/-- The layer's result array: the rectified aggregate at every entry. -/
def layer (f : (⟨2, ![4096, 256]⟩ : Shape).Idx → EReal) (a : (⟨2, ![4096, 4096]⟩ : Shape).Idx → EReal)
    (w : (⟨2, ![256, 256]⟩ : Shape).Idx → EReal) : (⟨2, ![4096, 256]⟩ : Shape).Idx → EReal :=
  fun i => max (agg f a w (i 0) (i 1)) 0

theorem layer_apply (f : (⟨2, ![4096, 256]⟩ : Shape).Idx → EReal) (a : (⟨2, ![4096, 4096]⟩ : Shape).Idx → EReal)
    (w : (⟨2, ![256, 256]⟩ : Shape).Idx → EReal) (i : Fin 4096) (j : Fin 256) :
    layer f a w (ix2 i j) = max (agg f a w i j) 0 := rfl

/-- A sum over 4096 terms is the sum of its first 2048 terms plus the sum of its last 2048, in any
    commutative additive monoid (here the extended reals, whose addition is commutative and associative
    at the infinities too). -/
theorem sum_halves {M : Type} [AddCommMonoid M] (g : Fin 4096 → M) :
    ∑ k : Fin 4096, g k
      = (∑ k : Fin 2048, g (Fin.castLE (by decide) k)) + ∑ k : Fin 2048, g ⟨2048 + k.val, by omega⟩ := by
  have h := Fin.sum_univ_add (M := M) (a := 2048) (b := 2048) (fun k : Fin (2048 + 2048) => g (Fin.cast (by decide) k))
  have e : ∑ k : Fin 4096, g k = ∑ k : Fin (2048 + 2048), g (Fin.cast (by decide) k) :=
    (Fintype.sum_equiv (finCongr (by decide : 2048 + 2048 = 4096)) _ _ (fun _ => rfl)).symm
  rw [e, h]
  rfl

/-- The two half contractions add up to the whole one. -/
theorem agg_split (f : (⟨2, ![4096, 256]⟩ : Shape).Idx → EReal) (a : (⟨2, ![4096, 4096]⟩ : Shape).Idx → EReal)
    (w : (⟨2, ![256, 256]⟩ : Shape).Idx → EReal) (i : Fin 4096) (j : Fin 256) :
    aggHalves f a w i j = agg f a w i j := by
  unfold aggHalves agg
  exact (sum_halves (fun k => a (ix2 i k) * support f w k j)).symm

end Cert.Spec

end
-- ==== Proof.RefValue.lean ====
/-
  The reference computation's last stage, read entry by entry, is the specification's layer.

  With f the node features (4096 x 256), a the adjacency (4096 x 4096) and w the weight (256 x 256), the
  reference forms f times w, then a times that product, then the entrywise maximum with an array of zeros.
  Entry (k, j) of the first product is the sum over l < 256 of f[k, l] * w[l, j], which is `support f w k j`;
  entry (p, q) of the second is the sum over k < 4096 of a[p, k] * support f w k q, which is `agg f a w p q`;
  and the maximum of that with zero is `layer f a w` at (p, q). Nothing but the shapes of the two sums and
  the fact that the all-zero 32-bit word denotes the number zero is used, so no entry needs to be finite.
-/
import proofs.«173311_g4337916969110_retrytranche1_687_7_alg».proof.Proof.Gen.ReferenceIdeal.Read
import proofs.«173311_g4337916969110_retrytranche1_687_7_alg».proof.Proof.Spec

noncomputable section

open scoped BigOperators

namespace Cert.ReferenceIdeal.RefValue

open Cert.ReferenceIdeal Cert.ReferenceIdeal.Gen Idealize.ShloMosaic Idealize.ShloMosaic.ValueIdx

/-- In features times weight, the term l of entry (p, q) reads the features at row p, column l. -/
theorem lidx_v0_eq (p : Fin 4096) (q : Fin 256) (l : Fin 256) :
    Read.lidx_main_v0 (ix2 p q) l = ix2 p l :=
  funext fun a => Fin.ext (by match a with | ⟨0, _⟩ => rfl | ⟨1, _⟩ => rfl)

/-- The same term reads the weight at row l, column q. -/
theorem ridx_v0_eq (p : Fin 4096) (q : Fin 256) (l : Fin 256) :
    Read.ridx_main_v0 (ix2 p q) l = ix2 l q :=
  funext fun a => Fin.ext (by match a with | ⟨0, _⟩ => rfl | ⟨1, _⟩ => rfl)

/-- In adjacency times support, the term k of entry (p, q) reads the adjacency at row p, column k. -/
theorem lidx_v1_eq (p : Fin 4096) (q : Fin 256) (k : Fin 4096) :
    Read.lidx_main_v1 (ix2 p q) k = ix2 p k :=
  funext fun a => Fin.ext (by match a with | ⟨0, _⟩ => rfl | ⟨1, _⟩ => rfl)

/-- The same term reads the support at row k, column q. -/
theorem ridx_v1_eq (p : Fin 4096) (q : Fin 256) (k : Fin 4096) :
    Read.ridx_main_v1 (ix2 p q) k = ix2 k q :=
  funext fun a => Fin.ext (by match a with | ⟨0, _⟩ => rfl | ⟨1, _⟩ => rfl)

/-- Features times weight at entry (k, j) is the sum over the 256 input features of f[k, l] * w[l, j]:
    the specification's support at (k, j). -/
theorem v0_is_support (x0 : (⟨S4096x256, .f32⟩ : BufTy).Contents (Elt Ideal))
    (x2 : (⟨S256x256, .f32⟩ : BufTy).Contents (Elt Ideal)) (k : Fin 4096) (j : Fin 256) :
    Read.val_main_v0 (F := Ideal) x0 x2 (ix2 k j) = Cert.Spec.support x0 x2 k j := by
  rw [Read.val_main_v0_apply]
  unfold Cert.Spec.support
  refine Finset.sum_congr rfl fun l _ => ?_
  rw [lidx_v0_eq, ridx_v0_eq]

/-- The whole result array: at every entry (p, q), the maximum of zero and the sum over all 4096 nodes k of
    a[p, k] * support f w k q. Both sides are the same sum term by term, and the constant they are compared
    with is zero on both sides. -/
theorem ref_is_layer (x0 : (⟨S4096x256, .f32⟩ : BufTy).Contents (Elt Ideal)) (x1 : (⟨S4096x4096, .f32⟩ : BufTy).Contents (Elt Ideal)) (x2 : (⟨S256x256, .f32⟩ : BufTy).Contents (Elt Ideal)) :
    Cert.ReferenceIdeal.Read.val_main_v2 (F := Ideal) x0 x1 x2 = Cert.Spec.layer x0 x1 x2 := by
  funext i
  obtain ⟨p, q, rfl⟩ : ∃ (p : Fin 4096) (q : Fin 256), i = ix2 p q := ⟨i 0, i 1, eq_ix2 i⟩
  rw [Read.val_main_v2_apply, Read.val_main_v1_apply, Read.val_main_call0_v0_apply,
    Read.val_main_call0_cst_apply, Ideal.maximumf_def, Cert.Spec.layer_apply]
  have hz : (FloatOps.ofBits (F := Ideal) FTy.f32 0x00000000#32) = 0 := Ideal.ofBits_zero_f32
  rw [hz]
  unfold Cert.Spec.agg
  congr 1
  refine Finset.sum_congr rfl fun k _ => ?_
  rw [lidx_v1_eq, ridx_v1_eq, v0_is_support]

end Cert.ReferenceIdeal.RefValue

end
-- ==== Proof.PayloadIdeal.lean ====
/-
  The two arrays the kernel body stores, read one entry at a time on the extended reals.

  The first is features times weight: entry (k, j) is the sum over the 256 features l of
  x[k, l] * w[l, j]. The second is the rectified sum of two products of a 512 x 2048 block with a
  2048 x 256 block: entry (p, j) is max (sum_k a[p, k] * s[k, j] + sum_k b[p, k] * t[k, j]) 0.
  A product that accumulates into the all-zero array is just the sum of the products of the entries;
  the only work is to name, coordinate by coordinate, which entry of each factor the contraction's
  k-th term reads: row p (the free row) and column k of the left factor, row k and column j (the free
  column) of the right factor.
-/
import proofs.«173311_g4337916969110_retrytranche1_687_7_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx
open scoped BigOperators

/-! ## The [4096, 256] x [256, 256] product: which entries the term of a contraction index reads -/

theorem lhs_fw_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_fw_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_fw_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_fw_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- Entry (p, j) of the [4096, 256] x [256, 256] product into the zero array: the sum over the 256 shared
    positions k of x[p, k] * y[k, j]. -/
theorem matmul_fw_apply (x : Vec Ideal S4096x256 .f32) (y : Vec Ideal S256x256 .f32) (p : Fin 4096) (j : Fin 256) :
    matmul (F := Ideal) (φ₁ := .f32) (φ₂ := .f32) dot_S4096x256_S256x256_S4096x256_1_0_0_1_n_n none x y (constant (F := Ideal) S4096x256 .f32 0x00000000#32) (ix2 p j)
      = ∑ k : Fin 256, x (ix2 p k) * y (ix2 k j) := by
  simp only [matmul]
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 p j) ((contrEquiv1 dot_S4096x256_S256x256_S4096x256_1_0_0_1_n_n 256 rfl rfl).symm k) = ix2 p k := funext fun a => Fin.ext (by
    match a with
    | ⟨0, _⟩ => exact lhs_fw_0 _ _
    | ⟨1, _⟩ => exact (lhs_fw_1 _ _).trans hk)
  have er : dot_S4096x256_S256x256_S4096x256_1_0_0_1_n_n.rhsIdx (ix2 p j) ((contrEquiv1 dot_S4096x256_S256x256_S4096x256_1_0_0_1_n_n 256 rfl rfl).symm k) = ix2 k j := funext fun a => Fin.ext (by
    match a with
    | ⟨0, _⟩ => exact (rhs_fw_0 _ _).trans hk
    | ⟨1, _⟩ => exact rhs_fw_1 _ _)
  rw [el, er]

/-! ## The [512, 2048] x [2048, 256] product -/

theorem lhs_as_0 (i : S512x256.Idx) (q : dot_S512x2048_S2048x256_S512x256_1_0_0_1_n_n.contr.Idx) :
    (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
theorem lhs_as_1 (i : S512x256.Idx) (q : dot_S512x2048_S2048x256_S512x256_1_0_0_1_n_n.contr.Idx) :
    (dot_S512x2048_S2048x256_S512x256_1_0_0_1_n_n.lhsIdx i q 1).val = (q ⟨0, by decide⟩).val :=
  dot_S512x2048_S2048x256_S512x256_1_0_0_1_n_n.lhsIdx_val_of_single rfl i q
theorem rhs_as_0 (i : S512x256.Idx) (q : dot_S512x2048_S2048x256_S512x256_1_0_0_1_n_n.contr.Idx) :
    (dot_S512x2048_S2048x256_S512x256_1_0_0_1_n_n.rhsIdx i q 0).val = (q ⟨0, by decide⟩).val :=
  dot_S512x2048_S2048x256_S512x256_1_0_0_1_n_n.rhsIdx_val_of_single rfl i q
theorem rhs_as_1 (i : S512x256.Idx) (q : dot_S512x2048_S2048x256_S512x256_1_0_0_1_n_n.contr.Idx) :
    (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

/-- Entry (p, j) of the [512, 2048] x [2048, 256] product into the zero array: the sum over the 2048 shared
    positions k of x[p, k] * y[k, j]. -/
theorem matmul_as_apply (x : Vec Ideal S512x2048 .f32) (y : Vec Ideal S2048x256 .f32) (p : Fin 512) (j : Fin 256) :
    matmul (F := Ideal) (φ₁ := .f32) (φ₂ := .f32) dot_S512x2048_S2048x256_S512x256_1_0_0_1_n_n none x y (constant (F := Ideal) S512x256 .f32 0x00000000#32) (ix2 p j)
      = ∑ k : Fin 2048, x (ix2 p k) * y (ix2 k j) := by
  simp only [matmul]
  rw [Ideal.matmul_constant_zero_apply, ← Equiv.sum_comp (contrEquiv1 dot_S512x2048_S2048x256_S512x256_1_0_0_1_n_n 2048 rfl rfl).symm]
  refine Finset.sum_congr rfl fun k _ => ?_
  have hk := contrEquiv1_symm_val dot_S512x2048_S2048x256_S512x256_1_0_0_1_n_n 2048 rfl rfl k
  have el : dot_S512x2048_S2048x256_S512x256_1_0_0_1_n_n.lhsIdx (ix2 p j) ((contrEquiv1 dot_S512x2048_S2048x256_S512x256_1_0_0_1_n_n 2048 rfl rfl).symm k) = ix2 p k := funext fun a => Fin.ext (by
    match a with
    | ⟨0, _⟩ => exact lhs_as_0 _ _
    | ⟨1, _⟩ => exact (lhs_as_1 _ _).trans hk)
  have er : dot_S512x2048_S2048x256_S512x256_1_0_0_1_n_n.rhsIdx (ix2 p j) ((contrEquiv1 dot_S512x2048_S2048x256_S512x256_1_0_0_1_n_n 2048 rfl rfl).symm k) = ix2 k j := funext fun a => Fin.ext (by
    match a with
    | ⟨0, _⟩ => exact (rhs_as_0 _ _).trans hk
    | ⟨1, _⟩ => exact rhs_as_1 _ _)
  rw [el, er]

/-! ## The two stored arrays -/

/-- the value stored into the scratch: features times weight, one entry = a sum over the 256 features
    (a matmul into a zero accumulator; the shape_cast to the same shape is the identity) -/
theorem pay1_apply (v13 : Vec Ideal S4096x256 .f32) (v14 : Vec Ideal S256x256 .f32) (k : Fin 4096) (j : Fin 256) :
    k0_pay1 (F := Ideal) v13 v14 (ix2 k j) = ∑ l : Fin 256, v13 (ix2 k l) * v14 (ix2 l j) := by
  unfold k0_pay1
  rw [shapeCast_self]
  exact matmul_fw_apply v13 v14 k j

/-- the value stored into the output block: the two half contractions (each a matmul into a zero accumulator) added, then max with the splat of 0 -/
theorem pay2_apply (v3 : Vec Ideal S512x2048 .f32) (v4 : Vec Ideal S2048x256 .f32) (v6 : Vec Ideal S512x2048 .f32) (v7 : Vec Ideal S2048x256 .f32) (p : Fin 512) (j : Fin 256) :
    k0_pay2 (F := Ideal) v3 v4 v6 v7 (ix2 p j)
      = max ((∑ k : Fin 2048, v3 (ix2 p k) * v4 (ix2 k j)) + ∑ k : Fin 2048, v6 (ix2 p k) * v7 (ix2 k j)) 0 := by
  unfold k0_pay2
  rw [maximumf_apply, addf_apply, broadcast_apply, matmul_as_apply v3 v4 p j, matmul_as_apply v6 v7 p j]
  exact congrArg (max _) Ideal.ofBits_zero_f32

end Cert.KernelIdeal.PayValue

end
-- ==== Proof.KernelValue.lean ====
/-
  From the blocks the grid points write back to the whole result array, on the extended reals.

  Grid point t writes rows 512 t .. 512 t + 511 of the result. Entry (p, j) of that block is the
  rectifier of two half contractions: the left half of adjacency row 512 t + p against rows 0 .. 2047 of
  features times weight, plus the right half of the same adjacency row against rows 2048 .. 4095. The two
  halves add up to the full contraction over all 4096 nodes, so the block is the restriction of the layer's
  result to those rows; the eight blocks tile the 4096 rows, so the array ends holding the layer's result.
-/
import proofs.«173311_g4337916969110_retrytranche1_687_7_alg».proof.Proof.KI.Body
import proofs.«173311_g4337916969110_retrytranche1_687_7_alg».proof.Proof.PayloadIdeal
import proofs.«173311_g4337916969110_retrytranche1_687_7_alg».proof.Proof.Spec
import Idealize.ShloMosaic.Lib.Pipeline.Value
import Idealize.ShloMosaic.Lib.ValueIdx

noncomputable section

namespace Cert.KernelIdeal.KValue

open Cert.KernelIdeal Cert.KernelIdeal.Gen Cert.KernelIdeal.Frm Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ)

/-! ## Where each window's block sits at a grid point -/

/-- The printed index maps, decided once over the eight grid points: the feature and weight windows stay at
    block (0, 0); the two adjacency windows and the output window are at row block t, the adjacency's in
    column block 0 (left half) and 1 (right half). -/
theorem blockIndex : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 1
    ∧ win0_4.index t (0 : Fin 2) = t.val ∧ win0_4.index t (1 : Fin 2) = 0 :=
  (by decide +kernel : ∀ t : Fin grid0.N, _)

/-- The feature window's block is the whole feature array. -/
theorem featBlock (c : Dev nD) (t : Fin cfg0.N) (x : S4096x256.Idx) :
    (iblk m c 0 t : Vec Ideal S4096x256 .f32) x = (m ((c : Thread nD τ).loc main_arg0) : S4096x256.Idx → EReal) x := by
  obtain ⟨e0, e1, -⟩ := blockIndex t
  unfold iblk
  rw [View.read_apply]
  show V m c main_arg0 _ = m ((c : Thread nD τ).loc main_arg0) _
  unfold V
  congr 1
  funext a
  apply Fin.ext
  match a with
  | ⟨0, _⟩ => show win0_0.index t (0 : Fin 2) * 4096 + 1 * (x 0).val = (x 0).val; rw [e0]; omega
  | ⟨1, _⟩ => show win0_0.index t (1 : Fin 2) * 256 + 1 * (x 1).val = (x 1).val; rw [e1]; omega

/-- The weight window's block is the whole weight array. -/
theorem weightBlock (c : Dev nD) (t : Fin cfg0.N) (x : S256x256.Idx) :
    (iblk m c 1 t : Vec Ideal S256x256 .f32) x = (m ((c : Thread nD τ).loc main_arg2) : S256x256.Idx → EReal) x := by
  obtain ⟨-, -, e0, e1, -⟩ := blockIndex t
  unfold iblk
  rw [View.read_apply]
  show V m c main_arg2 _ = m ((c : Thread nD τ).loc main_arg2) _
  unfold V
  congr 1
  funext a
  apply Fin.ext
  match a with
  | ⟨0, _⟩ => show win0_1.index t (0 : Fin 2) * 256 + 1 * (x 0).val = (x 0).val; rw [e0]; omega
  | ⟨1, _⟩ => show win0_1.index t (1 : Fin 2) * 256 + 1 * (x 1).val = (x 1).val; rw [e1]; omega

/-- The left adjacency window's block at point t: rows 512 t .., columns 0 .. 2047 of the adjacency. -/
theorem adjLeftBlock (c : Dev nD) (t : Fin cfg0.N) (x : S512x2048.Idx) (i : S4096x4096.Idx)
    (h0 : (i 0).val = 512 * t.val + (x 0).val) (h1 : (i 1).val = (x 1).val) :
    (iblk m c 2 t : Vec Ideal S512x2048 .f32) x = (m ((c : Thread nD τ).loc main_arg1) : S4096x4096.Idx → EReal) i := by
  obtain ⟨-, -, -, -, e0, e1, -⟩ := blockIndex t
  unfold iblk
  rw [View.read_apply]
  show V m c main_arg1 _ = m ((c : Thread nD τ).loc main_arg1) _
  unfold V
  congr 1
  funext a
  apply Fin.ext
  match a with
  | ⟨0, _⟩ => show win0_2.index t (0 : Fin 2) * 512 + 1 * (x 0).val = (i 0).val; rw [e0, h0]; omega
  | ⟨1, _⟩ => show win0_2.index t (1 : Fin 2) * 2048 + 1 * (x 1).val = (i 1).val; rw [e1, h1]; omega

/-- The right adjacency window's block at point t: the same rows, columns 2048 .. 4095. -/
theorem adjRightBlock (c : Dev nD) (t : Fin cfg0.N) (x : S512x2048.Idx) (i : S4096x4096.Idx)
    (h0 : (i 0).val = 512 * t.val + (x 0).val) (h1 : (i 1).val = 2048 + (x 1).val) :
    (iblk m c 3 t : Vec Ideal S512x2048 .f32) x = (m ((c : Thread nD τ).loc main_arg1) : S4096x4096.Idx → EReal) i := by
  obtain ⟨-, -, -, -, -, -, e0, e1, -⟩ := blockIndex t
  unfold iblk
  rw [View.read_apply]
  show V m c main_arg1 _ = m ((c : Thread nD τ).loc main_arg1) _
  unfold V
  congr 1
  funext a
  apply Fin.ext
  match a with
  | ⟨0, _⟩ => show win0_3.index t (0 : Fin 2) * 512 + 1 * (x 0).val = (i 0).val; rw [e0, h0]; omega
  | ⟨1, _⟩ => show win0_3.index t (1 : Fin 2) * 2048 + 1 * (x 1).val = (i 1).val; rw [e1, h1]; omega

/-! ## The two row halves of a 4096-row array -/

/-- Row k of the top half is row k of the array. -/
theorem ldTop_apply (xs : Vec Ideal S4096x256 .f32) (k : Fin 2048) (j : Fin 256) :
    ldTop xs (ix2 k j) = xs (ix2 (Fin.castLE (by decide) k : Fin 4096) j) := by
  unfold ldTop
  show xs _ = xs _
  congr 1
  funext a
  apply Fin.ext
  match a with
  | ⟨0, _⟩ => show 0 + 1 * k.val = k.val; omega
  | ⟨1, _⟩ => show 0 + 1 * j.val = j.val; omega

/-- Row k of the bottom half is row 2048 + k of the array. -/
theorem ldBot_apply (xs : Vec Ideal S4096x256 .f32) (k : Fin 2048) (j : Fin 256) :
    ldBot xs (ix2 k j) = xs (ix2 (⟨2048 + k.val, by omega⟩ : Fin 4096) j) := by
  unfold ldBot
  show xs _ = xs _
  congr 1
  funext a
  apply Fin.ext
  match a with
  | ⟨0, _⟩ => show 2048 + 1 * k.val = 2048 + k.val; omega
  | ⟨1, _⟩ => show 0 + 1 * j.val = j.val; omega

/-! ## One entry of what a point writes back -/

/-- Features times weight as the first point stores it, entry by entry: the specification's support. -/
theorem sup_apply (c : Dev nD) (k : Fin 4096) (j : Fin 256) :
    sup m c (ix2 k j) = Cert.Spec.support (m ((c : Thread nD τ).loc main_arg0)) (m ((c : Thread nD τ).loc main_arg2)) k j := by
  unfold sup
  rw [Cert.KernelIdeal.PayValue.pay1_apply]
  unfold Cert.Spec.support
  refine Finset.sum_congr rfl fun l _ => ?_
  rw [featBlock m c t0_0 (ix2 k l), weightBlock m c t0_0 (ix2 l j)]

/-- Entry (p, j) of the block point t leaves: the layer's result at row 512 t + p, column j. -/
theorem outv_apply (c : Dev nD) (t : Fin cfg0.N) (p : Fin 512) (j : Fin 256) (r : Fin 4096) (hr : r.val = 512 * t.val + p.val) :
    outv m c t (ix2 p j)
      = Cert.Spec.layer (m ((c : Thread nD τ).loc main_arg0)) (m ((c : Thread nD τ).loc main_arg1)) (m ((c : Thread nD τ).loc main_arg2)) (ix2 r j) := by
  unfold outv
  rw [Cert.KernelIdeal.PayValue.pay2_apply, Cert.Spec.layer_apply, ← Cert.Spec.agg_split]
  unfold Cert.Spec.aggHalves
  congr 2
  · refine Finset.sum_congr rfl fun k _ => ?_
    rw [adjLeftBlock m c t (ix2 p k) (ix2 r (Fin.castLE (by decide) k)) hr rfl, ldTop_apply, sup_apply]
  · refine Finset.sum_congr rfl fun k _ => ?_
    rw [adjRightBlock m c t (ix2 p k) (ix2 r ⟨2048 + k.val, by omega⟩) hr rfl, ldBot_apply, sup_apply]

/-! ## From the blocks to the array -/

/-- What point t writes back is block t (rows 512 t .. 512 t + 511) of the layer's result. -/
theorem flushed_eq (c : Dev nD) (t : Fin cfg0.N) :
    (dats (F := Ideal) m 0 c).flushed 4 t
      = ((cfg0.win 4).blk t).view.read (Elt Ideal)
          (Cert.Spec.layer (m ((c : Thread nD τ).loc main_arg0)) (m ((c : Thread nD τ).loc main_arg1)) (m ((c : Thread nD τ).loc main_arg2))) := by
  show (cfg0.win 4).cut (grid0.coords t) ((dats m 0 c).after 4 t) = _
  rw [after4]
  funext y
  obtain ⟨p, j, rfl⟩ : ∃ (p : Fin 512) (j : Fin 256), y = ix2 p j := ⟨y 0, y 1, eq_ix2 y⟩
  obtain ⟨-, -, -, -, -, -, -, -, e0, e1⟩ := blockIndex t
  have ht : t.val < 8 := lt_of_lt_of_eq t.isLt N_0
  rw [View.read_apply]
  show outv m c t (ix2 p j) = Cert.Spec.layer _ _ _ (((cfg0.win 4).blk t).view.emb (ix2 p j))
  have hemb : ((cfg0.win 4).blk t).view.emb (ix2 p j) = ix2 (⟨512 * t.val + p.val, by omega⟩ : Fin 4096) j := by
    funext a
    apply Fin.ext
    match a with
    | ⟨0, _⟩ => show win0_4.index t (0 : Fin 2) * 512 + 1 * p.val = 512 * t.val + p.val; rw [e0]; omega
    | ⟨1, _⟩ => show win0_4.index t (1 : Fin 2) * 256 + 1 * j.val = j.val; rw [e1]; omega
  rw [hemb]
  exact outv_apply m c t p j _ rfl

/-- An index of the result array is in point t's block iff each coordinate is in the block's range on its axis. -/
theorem mem_blk (t : Fin cfg0.N) (i : S4096x256.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v0).slice (win0_4.rect t)).set ↔ _
  rw [View.set_slice_whole, Rect.mem_set_unit]
  exact Iff.rfl

/-- Every row r of the result is in some point's block: point r / 512's. -/
theorem covered (i : S4096x256.Idx) :
    ∃ t : Fin cfg0.N, (cfg0.win 4).flush t = true ∧ i ∈ ((cfg0.win 4).blk t).view.set := by
  have hi0 : (i 0).val < 4096 := (i 0).isLt
  have hi1 : (i 1).val < 256 := (i 1).isLt
  obtain ⟨t, ht⟩ : ∃ t : Fin cfg0.N, t.val = (i 0).val / 512 :=
    ⟨⟨(i 0).val / 512, by rw [show cfg0.N = 8 from N_0]; omega⟩, rfl⟩
  obtain ⟨-, -, -, -, -, -, -, -, e0, e1⟩ := blockIndex t
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; rw [e0, ht]; omega
  | ⟨1, _⟩ => show win0_4.index t (1 : Fin 2) * 256 ≤ (i 1).val ∧ (i 1).val < win0_4.index t (1 : Fin 2) * 256 + 256; rw [e1]; omega

/-- The result array after the run is the layer's result of the three argument arrays. -/
theorem final_out (m : (ℓ : Loc nD τ sig) → Buf (Elt Ideal) ℓ) (c : Dev nD) :
    (dats (F := Ideal) m 0 c).arrAt 4 cfg0.N
      = Cert.Spec.layer (m ((c : Thread nD τ).loc main_arg0)) (m ((c : Thread nD τ).loc main_arg1)) (m ((c : Thread nD τ).loc main_arg2)) :=
  (dats m 0 c).arrAt_eq_of_cover 4
    (Cert.Spec.layer (m ((c : Thread nD τ).loc main_arg0)) (m ((c : Thread nD τ).loc main_arg1)) (m ((c : Thread nD τ).loc main_arg2)))
    (fun t _ => flushed_eq m c t) covered

end Cert.KernelIdeal.KValue

end
-- ==== Proof.lean ====
/-
  The fused graph layer relu(adj · (features · weight)) against its jnp reference, over the extended reals.

  The kernel runs one pallas_call on a grid of 8 points. At the first point it computes the
  4096 x 256 product features · weight once and keeps it in a scratch buffer; at every point t it
  multiplies rows 512 t .. 512 t + 511 of the adjacency by that product in two halves — the adjacency
  is handed to it twice, as a left and a right column half, so the contraction over the 4096 nodes is
  the sum over nodes below 2048 plus the sum over nodes from 2048 on — adds the two, and takes the
  maximum with 0. The reference computes max(adj · (features · weight), 0) in one piece. At the ideal
  instance every matrix product is the plain finite sum of products, so entry by entry both sides are
  max(Σ_k adj[i,k] · Σ_l features[k,l] · weight[l,j], 0); the one law joining them is that a sum over
  4096 terms is the sum of its two halves, which holds in any commutative monoid, so no entry is
  required to be finite and the precondition is never opened.

  The three frames: the reference is a host program whose run is read back operation by operation; the
  kernel's frame (at both instances, from one text generic in the float values) is the pipeline's launch
  with the adjacency's share split between its two windows, the body run once per control case (the
  first point stores the scratch, the later points only read it), and the scratch carried between points
  at the product. The ideal pass rewrote nothing, so the idealization claim has no conjunct.
-/
import proofs.«173311_g4337916969110_retrytranche1_687_7_alg».proof.Defs
import proofs.«173311_g4337916969110_retrytranche1_687_7_alg».proof.Proof.Gen.Kernel
import proofs.«173311_g4337916969110_retrytranche1_687_7_alg».proof.Proof.Gen.KernelIdeal
import proofs.«173311_g4337916969110_retrytranche1_687_7_alg».proof.Proof.Gen.ReferenceIdeal
import proofs.«173311_g4337916969110_retrytranche1_687_7_alg».proof.Proof.Gen.Pre_finite_inputs
import proofs.«173311_g4337916969110_retrytranche1_687_7_alg».proof.Proof.Gen.ReferenceIdeal.Run
import proofs.«173311_g4337916969110_retrytranche1_687_7_alg».proof.Proof.Gen.ReferenceIdeal.Read
import proofs.«173311_g4337916969110_retrytranche1_687_7_alg».proof.Proof.K.Launch
import proofs.«173311_g4337916969110_retrytranche1_687_7_alg».proof.Proof.KI.Launch
import proofs.«173311_g4337916969110_retrytranche1_687_7_alg».proof.Proof.Spec
import proofs.«173311_g4337916969110_retrytranche1_687_7_alg».proof.Proof.RefValue
import proofs.«173311_g4337916969110_retrytranche1_687_7_alg».proof.Proof.KernelValue

noncomputable section

namespace Cert.Proof

open Idealize.ShloMosaic Idealize.ShloMosaic.TcCoe Idealize.SL.Sem

/-- The word-level kernel runs to the end, faults nowhere and leaves its arguments unchanged. -/
theorem frame_k : Cert.frame_Kernel := fun m ρ _ => Cert.Kernel.Frm.frame m ρ

/-- So does the idealized kernel. -/
theorem frame_ki : Cert.frame_KernelIdeal := fun m ρ _ => Cert.KernelIdeal.Frm.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the result array at the layer's one function of the arguments:
    the kernel's eight row blocks tile it, the reference's three operations compose to it. -/
theorem algebraic : Cert.algebraic_KernelIdeal_ReferenceIdeal := by
  intro m ρ m' ρ' _ hagree
  refine ⟨fun c => Cert.Spec.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.KValue.final_out m c), (h c).2⟩)
      (Cert.KernelIdeal.Frm.run_value (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v2_eq, Cert.ReferenceIdeal.RefValue.ref_is_layer,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
